-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048x3 : Shape := ⟨3, ![4096, 2048, 3]⟩
abbrev S_ : Shape := ⟨0, ![]⟩

class Facts : Prop where
  bcast_S_S4096x2048x3 : S_.BroadcastsInDim S4096x2048x3 (![] : Fin 0 → Fin S4096x2048x3.rank)
  reducesTo_S4096x2048x3_S_d0_1_2 : S4096x2048x3.ReducesTo [0, 1, 2] S_
  h_S_ : 0 < S_.numel

variable [Facts]

def fn {F : FTy → Type} [FloatOps F] (main_arg0 : FVec F S4096x2048x3 .f32) : IVec S_ 1 :=
  let main_v0 : FVec F S4096x2048x3 .f32 := Host.absf main_arg0
  let main_cst : FVec F S_ .f32 := constant S_ .f32 0x7F800000#32
  let main_v1 : FVec F S4096x2048x3 .f32 := broadcastInDim S4096x2048x3 ![] bcast_S_S4096x2048x3 main_cst
  let main_v2 : IVec S4096x2048x3 1 := cmpf .olt main_v0 main_v1
  let main_c : IVec S_ 1 := constantI S_ 1 1#1
  let main_v3 : IVec S_ 1 := (fun x v => Host.reduce IntOp.andi x v reducesTo_S4096x2048x3_S_d0_1_2 h_S_) main_v2 main_c
  main_v3
-- ==== Kernel.lean ====
abbrev S4096x2048x3 : Shape := ⟨3, ![4096, 2048, 3]⟩
abbrev S8388608x3 : Shape := ⟨2, ![8388608, 3]⟩
abbrev S8388608x9 : Shape := ⟨2, ![8388608, 9]⟩
abbrev S8192x3 : Shape := ⟨2, ![8192, 3]⟩
abbrev S8192x9 : Shape := ⟨2, ![8192, 9]⟩
abbrev S8192 : Shape := ⟨1, ![8192]⟩
abbrev S8192x1 : Shape := ⟨2, ![8192, 1]⟩
abbrev S4096x2048x3x3 : Shape := ⟨4, ![4096, 2048, 3, 3]⟩

abbrev nBuf : Space → Nat
  | .hbm => 4
  | .vmem => 4
  | .smem => 0
  | _ => 0

abbrev bufTy : (tb : Table) → Fin (tcTables nBuf tb) → BufTy
  | .hbm, ⟨0, _⟩ => ⟨S4096x2048x3, .f32⟩
  | .hbm, ⟨1, _⟩ => ⟨S8388608x3, .f32⟩
  | .hbm, ⟨2, _⟩ => ⟨S8388608x9, .f32⟩
  | .hbm, ⟨3, _⟩ => ⟨S4096x2048x3x3, .f32⟩
  | .local _ .vmem, ⟨0, _⟩ => ⟨S8192x3, .f32⟩
  | .local _ .vmem, ⟨1, _⟩ => ⟨S8192x3, .f32⟩
  | .local _ .vmem, ⟨2, _⟩ => ⟨S8192x9, .f32⟩
  | .local _ .vmem, ⟨3, _⟩ => ⟨S8192x9, .f32⟩
  | _, _ => ⟨S4096x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4096x2048x3_S8388608x3 : S4096x2048x3.ShapeCasts S8388608x3
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  reduces_S8192x3_S8192 : S8192x3.Reduces [1] S8192
  shapeCasts_S8192_S8192x1 : S8192.ShapeCasts S8192x1
  broadcasts_S8192x1_S8192x3 : S8192x1.Broadcasts S8192x3
  slices_S8192x3_o0_0_S8192x1 : S8192x3.Slices ![0, 0] S8192x1
  slices_S8192x3_o0_1_S8192x1 : S8192x3.Slices ![0, 1] S8192x1
  slices_S8192x3_o0_2_S8192x1 : S8192x3.Slices ![0, 2] S8192x1
  concatenates_S8192x1_S8192x1_S8192x1_S8192x1_S8192x1_S8192x1_S8192x1_S8192x1_S8192x1_S8192x9_d1 : Shape.Concatenates [S8192x1, S8192x1, S8192x1, S8192x1, S8192x1, S8192x1, S8192x1, S8192x1, S8192x1] S8192x9 1
  inb_S8192x9_S8192x9_0_0 : ∀ a, (![0, 0] : Fin 2 → Nat) a + S8192x9.size a ≤ S8192x9.size a
  h_S8192x9 : 0 < S8192x9.numel
  shapeCasts_S8388608x9_S4096x2048x3x3 : S8388608x9.ShapeCasts S4096x2048x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S8388608x3.size a
  hwx0_0 : ∀ i : grid0.Coords, EltTy.bits .f32 = 32 ∨ (Rect.block (s := S8388608x3) S8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x9.size a ≤ S8388608x9.size a
  hwx0_1 : ∀ i : grid0.Coords, EltTy.bits .f32 = 32 ∨ (Rect.block (s := S8388608x9) S8192x9.size (cc0_transform_1 i) (hinb0_1 i)).WholeWords (EltTy.packing .f32)

variable [Facts₀]

abbrev win0_0 : Pipeline.Window sig grid0 :=
  Pipeline.Window.ofSpec (Memref.whole main_v0) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x2048x3 : Shape := ⟨3, ![4096, 2048, 3]⟩
abbrev S_ : Shape := ⟨0, ![]⟩
abbrev S4096x2048 : Shape := ⟨2, ![4096, 2048]⟩
abbrev S4096x2048x1 : Shape := ⟨3, ![4096, 2048, 1]⟩
abbrev S4096x2048x9 : Shape := ⟨3, ![4096, 2048, 9]⟩
abbrev S4096x2048x3x3 : Shape := ⟨4, ![4096, 2048, 3, 3]⟩
abbrev S4096x2048x1x1 : Shape := ⟨4, ![4096, 2048, 1, 1]⟩
abbrev S3x3 : Shape := ⟨2, ![3, 3]⟩
abbrev S1x1x3x3 : Shape := ⟨4, ![1, 1, 3, 3]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048x3, .f32⟩
  | .hbm, ⟨1, _⟩ => ⟨S4096x2048x3, .f32⟩
  | .hbm, ⟨2, _⟩ => ⟨S_, .f32⟩
  | .hbm, ⟨3, _⟩ => ⟨S4096x2048, .f32⟩
  | .hbm, ⟨4, _⟩ => ⟨S4096x2048x1, .f32⟩
  | .hbm, ⟨5, _⟩ => ⟨S4096x2048x1, .f32⟩
  | .hbm, ⟨6, _⟩ => ⟨S_, .f32⟩
  | .hbm, ⟨7, _⟩ => ⟨S4096x2048x1, .f32⟩
  | .hbm, ⟨8, _⟩ => ⟨S4096x2048x1, .f32⟩
  | .hbm, ⟨9, _⟩ => ⟨S4096x2048x3, .f32⟩
  | .hbm, ⟨10, _⟩ => ⟨S4096x2048x3, .f32⟩
  | .hbm, ⟨11, _⟩ => ⟨S4096x2048x1, .f32⟩
  | .hbm, ⟨12, _⟩ => ⟨S4096x2048, .f32⟩
  | .hbm, ⟨13, _⟩ => ⟨S4096x2048x1, .f32⟩
  | .hbm, ⟨14, _⟩ => ⟨S4096x2048, .f32⟩
  | .hbm, ⟨15, _⟩ => ⟨S4096x2048x1, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048x1, .f32⟩
  | .hbm, ⟨23, _⟩ => ⟨S4096x2048x1, .f32⟩
  | .hbm, ⟨24, _⟩ => ⟨S4096x2048x1, .f32⟩
  | .hbm, ⟨25, _⟩ => ⟨S4096x2048x1, .f32⟩
  | .hbm, ⟨26, _⟩ => ⟨S4096x2048x1, .f32⟩
  | .hbm, ⟨27, _⟩ => ⟨S4096x2048x1, .f32⟩
  | .hbm, ⟨28, _⟩ => ⟨S4096x2048x1, .f32⟩
  | .hbm, ⟨29, _⟩ => ⟨S4096x2048x1, .f32⟩
  | .hbm, ⟨30, _⟩ => ⟨S4096x2048x1, .f32⟩
  | .hbm, ⟨31, _⟩ => ⟨S4096x2048x9, .f32⟩
  | .hbm, ⟨32, _⟩ => ⟨S4096x2048x3x3, .f32⟩
  | .hbm, ⟨33, _⟩ => ⟨S4096x2048x1, .f32⟩
  | .hbm, ⟨34, _⟩ => ⟨S4096x2048x1x1, .f32⟩
  | .hbm, ⟨35, _⟩ => ⟨S4096x2048x1, .f32⟩
  | .hbm, ⟨36, _⟩ => ⟨S_, .f32⟩
  | .hbm, ⟨37, _⟩ => ⟨S4096x2048x1, .f32⟩
  | .hbm, ⟨38, _⟩ => ⟨S4096x2048x1, .f32⟩
  | .hbm, ⟨39, _⟩ => ⟨S4096x2048x1x1, .f32⟩
  | .hbm, ⟨40, _⟩ => ⟨S4096x2048x3x3, .f32⟩
  | .hbm, ⟨41, _⟩ => ⟨S3x3, .i32⟩
  | .hbm, ⟨42, _⟩ => ⟨S3x3, .i32⟩
  | .hbm, ⟨43, _⟩ => ⟨S_, .i32⟩
  | .hbm, ⟨44, _⟩ => ⟨S3x3, .i32⟩
  | .hbm, ⟨45, _⟩ => ⟨S3x3, .i32⟩
  | .hbm, ⟨46, _⟩ => ⟨S3x3, .i1⟩
  | .hbm, ⟨47, _⟩ => ⟨S3x3, .f32⟩
  | .hbm, ⟨48, _⟩ => ⟨S4096x2048x3x3, .f32⟩
  | .hbm, ⟨49, _⟩ => ⟨S4096x2048x3x3, .f32⟩
  | .hbm, ⟨50, _⟩ => ⟨S1x1x3x3, .f32⟩
  | .hbm, ⟨51, _⟩ => ⟨S4096x2048x3x3, .f32⟩
  | .hbm, ⟨52, _⟩ => ⟨S4096x2048x3x3, .f32⟩
  | .hbm, ⟨53, _⟩ => ⟨S4096x2048x3x3, .f32⟩
  | .hbm, ⟨54, _⟩ => ⟨S4096x2048x3x3, .f32⟩
  | .hbm, ⟨55, _⟩ => ⟨S4096x2048x3x3, .f32⟩
  | _, _ => ⟨S4096x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]

class Facts₀ : Prop where
  reducesTo_S4096x2048x3_S4096x2048_d2 : S4096x2048x3.ReducesTo [2] S4096x2048
  h_S_ : 0 < S_.numel
  bcast_S4096x2048_S4096x2048x1_0_1 : S4096x2048.BroadcastsInDim S4096x2048x1 (![0, 1] : Fin 2 → Fin S4096x2048x1.rank)
  bcast_S_S4096x2048x1 : S_.BroadcastsInDim S4096x2048x1 (![] : Fin 0 → Fin S4096x2048x1.rank)
  bcast_S4096x2048x1_S4096x2048x3_0_1_2 : S4096x2048x1.BroadcastsInDim S4096x2048x3 (![0, 1, 2] : Fin 3 → Fin S4096x2048x3.rank)
  slices_S4096x2048x3_S4096x2048x1_0_0_0 : S4096x2048x3.Slices ![0, 0, 0] S4096x2048x1
  shapeCasts_S4096x2048x1_S4096x2048 : S4096x2048x1.ShapeCasts S4096x2048
  slices_S4096x2048x3_S4096x2048x1_0_0_1 : S4096x2048x3.Slices ![0, 0, 1] S4096x2048x1
  slices_S4096x2048x3_S4096x2048x1_0_0_2 : S4096x2048x3.Slices ![0, 0, 2] S4096x2048x1
  bcast_S_S4096x2048 : S_.BroadcastsInDim S4096x2048 (![] : Fin 0 → Fin S4096x2048.rank)
  concatenates_S4096x2048x1_S4096x2048x1_S4096x2048x1_S4096x2048x1_S4096x2048x1_S4096x2048x1_S4096x2048x1_S4096x2048x1_S4096x2048x1_S4096x2048x9_d2 : Shape.Concatenates [S4096x2048x1, S4096x2048x1, S4096x2048x1, S4096x2048x1, S4096x2048x1, S4096x2048x1, S4096x2048x1, S4096x2048x1, S4096x2048x1] S4096x2048x9 2
  shapeCasts_S4096x2048x9_S4096x2048x3x3 : S4096x2048x9.ShapeCasts S4096x2048x3x3
  bcast_S4096x2048x1_S4096x2048x1x1_0_1_2 : S4096x2048x1.BroadcastsInDim S4096x2048x1x1 (![0, 1, 2] : Fin 3 → Fin S4096x2048x1x1.rank)
  bcast_S_S3x3 : S_.BroadcastsInDim S3x3 (![] : Fin 0 → Fin S3x3.rank)
  bcast_S4096x2048x1x1_S4096x2048x3x3_0_1_2_3 : S4096x2048x1x1.BroadcastsInDim S4096x2048x3x3 (![0, 1, 2, 3] : Fin 4 → Fin S4096x2048x3x3.rank)
  bcast_S3x3_S1x1x3x3_2_3 : S3x3.BroadcastsInDim S1x1x3x3 (![2, 3] : Fin 2 → Fin S1x1x3x3.rank)
  bcast_S1x1x3x3_S4096x2048x3x3_0_1_2_3 : S1x1x3x3.BroadcastsInDim S4096x2048x3x3 (![0, 1, 2, 3] : Fin 4 → Fin S4096x2048x3x3.rank)
  dot_S4096x2048x3x3_S4096x2048x3x3_S4096x2048x3x3_3_2_2_3_01_01_wf : DotDims.WF S4096x2048x3x3 S4096x2048x3x3 S4096x2048x3x3 [3] [2] [2] [3] [0, 1] [0, 1]

variable [Facts₀]

def dot_S4096x2048x3x3_S4096x2048x3x3_S4096x2048x3x3_3_2_2_3_01_01 : DotDims S4096x2048x3x3 S4096x2048x3x3 S4096x2048x3x3 where
  lhsContracting := [3]
  rhsContracting := [2]
  lhsNonContracting := [2]
  rhsNonContracting := [3]
  lhsBatch := [0, 1]
  rhsBatch := [0, 1]
  wf := dot_S4096x2048x3x3_S4096x2048x3x3_S4096x2048x3x3_3_2_2_3_01_01_wf

class Facts : Prop extends Facts₀ where

variable [Facts]
-- ==== Proof.Rodrigues.lean ====
/-
  Rodrigues' rotation formula for one row, on the extended reals.

  A row is a twist vector x = (x0, x1, x2).  Its angle is theta = max (sqrt (x0^2 + x1^2 + x2^2)) eps with eps the
  f32 nearest 1e-5, its unit axis a = x / theta, and the rotation matrix is
      R = I + sin(theta) A + (1 - cos(theta)) A A,
  with A the cross-product (skew-symmetric) matrix of a.  Two spellings of the nine entries of R are compared here:
  the CLOSED form, entry by entry (for example R00 = 1 + ((0 - a2 a2) - a1 a1)(1 - cos theta)), and the EXPANDED
  form (delta + A s) + (sum over k of A_ik A_kj) c.  They agree whenever a, s and c are real numbers: each entry is
  a polynomial identity in the commutative ring of reals (the matrix product A A written out).  On the extended
  reals the identity needs the entries finite, which holds for a finite row: the sum of squares is a nonnegative
  real, its square root a real, the clamp makes theta a real >= eps > 0, so x / theta is real, and sine and cosine
  of a real are real.
-/
import Idealize.ShloMosaic.PureOps.Ideal
import Idealize.ShloMosaic.PureOps.Ideal.Laws

noncomputable section

namespace Cert.Rodrigues

open Idealize.ShloMosaic

/-- The clamp of the angle: the f32 nearest to 1e-5. -/
def eps : EReal := Ideal.ofBits .f32 0x3727C5AC#32
/-- The f32 pattern of 1. -/
def one : EReal := Ideal.ofBits .f32 0x3F800000#32
/-- The f32 pattern of +0. -/
def zero : EReal := Ideal.ofBits .f32 0x00000000#32

theorem one_eq : one = 1 := by
  unfold one; simp [Ideal.ofBits, Ideal.ieee, -EReal.coe_mul]; norm_num

theorem zero_eq : zero = 0 := by
  unfold zero; simp [Ideal.ofBits, Ideal.ieee]

/-- The clamp is a positive real. -/
theorem eps_real : ∃ e : ℝ, 0 < e ∧ eps = (e : EReal) := by
  refine ⟨((2 ^ 23 + 2606508 : ℕ) : ℝ) * (2 : ℝ) ^ ((110 : ℤ) - 127 - 23), by positivity, ?_⟩
  unfold eps; simp [Ideal.ofBits, Ideal.ieee, -EReal.coe_mul]

/-! ## The row's angle, axis, sine and versine -/

/-- The sum of the row's squares. -/
def sumsq (x : Fin 3 → EReal) : EReal := ∑ k : Fin 3, x k * x k
/-- The rotation angle: the row's norm, clamped below by `eps`. -/
def angle (x : Fin 3 → EReal) : EReal := max (Ideal.sqrt (sumsq x)) eps
/-- The rotation axis: the row over its angle. -/
def axis (x : Fin 3 → EReal) (k : Fin 3) : EReal := Ideal.div (x k) (angle x)
/-- The sine of the angle. -/
def sine (x : Fin 3 → EReal) : EReal := Ideal.sin (angle x)
/-- One minus the cosine of the angle. -/
def versine (x : Fin 3 → EReal) : EReal := one - Ideal.cos (angle x)

/-! ## The two spellings of the rotation matrix -/

/-- The nine entries in closed form, row-major, from the axis `a`, the sine `s` and the versine `c`; a negation is
    spelt as a difference from zero. -/
def closed (a : Fin 3 → EReal) (s c : EReal) (q : Fin 9) : EReal :=
  match q with
  | ⟨0, _⟩ => one + ((zero - a 2 * a 2) - a 1 * a 1) * c
  | ⟨1, _⟩ => (zero - a 2 * s) + (a 0 * a 1) * c
  | ⟨2, _⟩ => a 1 * s + (a 0 * a 2) * c
  | ⟨3, _⟩ => a 2 * s + (a 0 * a 1) * c
  | ⟨4, _⟩ => one + ((zero - a 2 * a 2) - a 0 * a 0) * c
  | ⟨5, _⟩ => (zero - a 0 * s) + (a 1 * a 2) * c
  | ⟨6, _⟩ => (zero - a 1 * s) + (a 0 * a 2) * c
  | ⟨7, _⟩ => a 0 * s + (a 1 * a 2) * c
  | ⟨_ + 8, _⟩ => one + ((zero - a 1 * a 1) - a 0 * a 0) * c

/-- The cross-product matrix of `a`, row-major: (0, -a2, a1; a2, 0, -a0; -a1, a0, 0). -/
def skew (a : Fin 3 → EReal) (q : Fin 9) : EReal :=
  match q with
  | ⟨0, _⟩ => zero
  | ⟨1, _⟩ => -(a 2)
  | ⟨2, _⟩ => a 1
  | ⟨3, _⟩ => a 2
  | ⟨4, _⟩ => zero
  | ⟨5, _⟩ => -(a 0)
  | ⟨6, _⟩ => -(a 1)
  | ⟨7, _⟩ => a 0
  | ⟨_ + 8, _⟩ => zero

/-- Entry (i, j) of a 3 x 3 matrix in row-major order. -/
def flat (i j : Fin 3) : Fin 9 := ⟨3 * i.val + j.val, by have := i.isLt; have := j.isLt; omega⟩

/-- The identity matrix. -/
def delta (i j : Fin 3) : EReal := if i = j then 1 else 0

/-- Entry (i, j) of I + A s + (A A) c with the matrix product written as a sum. -/
def expanded (a : Fin 3 → EReal) (s c : EReal) (i j : Fin 3) : EReal :=
  (delta i j + skew a (flat i j) * s) + (∑ k : Fin 3, skew a (flat i k) * skew a (flat k j)) * c

/-- For a real axis, sine and versine the closed form IS the expanded one: nine polynomial identities. -/
theorem closed_eq_expanded (a : Fin 3 → ℝ) (s c : ℝ) (i j : Fin 3) :
    closed (fun k => (a k : EReal)) s c (flat i j) = expanded (fun k => (a k : EReal)) s c i j := by
  unfold expanded
  rw [Fin.sum_univ_three]
  fin_cases i <;> fin_cases j <;>
    simp only [closed, skew, flat, delta, one_eq, zero_eq] <;>
    norm_num <;> norm_cast <;> ring

/-! ## A finite row has a real axis, sine and versine -/

/-- For a row of real numbers the angle is a real `>= eps > 0`, so the axis, the sine and the versine are reals. -/
theorem real_terms (x : Fin 3 → EReal) (hx : ∀ k, ∃ r : ℝ, x k = (r : EReal)) :
    ∃ (a : Fin 3 → ℝ) (s c : ℝ), axis x = (fun k => (a k : EReal)) ∧ sine x = (s : EReal) ∧ versine x = (c : EReal) := by
  choose r hr using hx
  obtain ⟨e, he, hE⟩ := eps_real
  have hss : sumsq x = ((r 0 * r 0 + r 1 * r 1 + r 2 * r 2 : ℝ) : EReal) := by
    unfold sumsq; rw [Fin.sum_univ_three, hr 0, hr 1, hr 2]; norm_cast
  have hnn : ¬ (r 0 * r 0 + r 1 * r 1 + r 2 * r 2 < 0) :=
    not_lt.mpr (by nlinarith [mul_self_nonneg (r 0), mul_self_nonneg (r 1), mul_self_nonneg (r 2)])
  have hang : angle x = ((max (Real.sqrt (r 0 * r 0 + r 1 * r 1 + r 2 * r 2)) e : ℝ) : EReal) := by
    unfold angle; rw [hss, Ideal.sqrt_coe, if_neg hnn, hE]
    exact (EReal.coe_strictMono.monotone.map_max).symm
  have hθ : max (Real.sqrt (r 0 * r 0 + r 1 * r 1 + r 2 * r 2)) e ≠ 0 :=
    (lt_of_lt_of_le he (le_max_right _ _)).ne'
  refine ⟨fun k => r k * (1 / max (Real.sqrt (r 0 * r 0 + r 1 * r 1 + r 2 * r 2)) e),
    Real.sin (max (Real.sqrt (r 0 * r 0 + r 1 * r 1 + r 2 * r 2)) e),
    1 - Real.cos (max (Real.sqrt (r 0 * r 0 + r 1 * r 1 + r 2 * r 2)) e), ?_, ?_, ?_⟩
  · funext k; unfold axis; rw [hang, Ideal.div_coe hθ, hr k, ← EReal.coe_mul]
  · unfold sine; rw [hang, Ideal.sin_coe]
  · unfold versine; rw [hang, Ideal.cos_coe, one_eq, ← EReal.coe_one, ← EReal.coe_sub]

/-- So on a finite row the closed form of the rotation matrix is the expanded one, entry by entry. -/
theorem closed_eq_expanded_row (x : Fin 3 → EReal) (hx : ∀ k, ∃ r : ℝ, x k = (r : EReal)) (i j : Fin 3) :
    closed (axis x) (sine x) (versine x) (flat i j) = expanded (axis x) (sine x) (versine x) i j := by
  obtain ⟨a, s, c, ha, hs, hc⟩ := real_terms x hx
  rw [ha, hs, hc]; exact closed_eq_expanded a s c i j

end Cert.Rodrigues

end
-- ==== Proof.Finite.lean ====
/-
  What the precondition says: every entry of the twists is a real number.

  The precondition is the conjunction, over all entries x, of |x| < +inf.  On the extended reals |x| is
  max x (-x), which is +inf exactly when x is one of the two infinities; so each entry is a real.
-/
import proofs.«117936_j48696339202533_1_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun _ _ => funext fun d => d.elim0⟩

/-- The f32 pattern of +inf. -/
theorem inf_eq : Ideal.ofBits .f32 0x7F800000#32 = ⊤ := by
  simp [Ideal.ofBits, Ideal.ieee]

/-- An extended real whose absolute value is below +inf is a real. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry is a real. -/
theorem real_of_pre [Facts] (X : FVec Ideal S4096x2048x3 .f32) (h : fn (F := Ideal) X = fun _ => 1#1)
    (i : S4096x2048x3.Idx) : ∃ r : ℝ, X i = (r : EReal) := by
  have h0 := congrFun h ValueIdx.ix0
  dsimp only [fn] at h0
  have hi := Host.reduce_andi_all _ _ _ _ _ h0 i
  have hc : Ideal.cmp .olt (max (X i) (-(X i))) (Ideal.ofBits .f32 0x7F800000#32) = 1#1 := hi
  rw [inf_eq] at hc
  have hd : BitVec.ofBool (decide (max (X i) (-(X i)) < ⊤)) = 1#1 := hc
  refine real_of_abs_lt_top (X i) ?_
  by_contra hlt
  rw [decide_eq_false hlt] at hd
  exact absurd hd (by decide)

end Cert.Finite

end
-- ==== Proof.KernelBlock.lean ====
/-
  One block of the kernel, row by row.

  The body loads a block of 8192 twist vectors (8192 x 3), and stores 8192 rotation matrices flattened row-major
  (8192 x 9).  Everything it does is row-local: the sum of a row's three squares, its square root clamped below
  (the angle), the row divided by the angle (the axis), the sine and one minus the cosine of the angle, products
  of these, and a concatenation of nine columns.  So entry (p, q) of the block the body leaves is entry q of the
  closed-form rotation matrix of row p of the loaded block.
-/
import proofs.«117936_j48696339202533_1_alg».proof.Proof.Gen.KernelIdeal.Frame
import proofs.«117936_j48696339202533_1_alg».proof.Proof.Rodrigues
import Idealize.ShloMosaic.Lib.ValueIdx
import Idealize.ShloMosaic.Lib.Pipeline.Value
import Idealize.ShloMosaic.PureOps.Ideal.Laws

noncomputable section

namespace Cert.KernelIdeal.Block

open Cert Cert.KernelIdeal Cert.KernelIdeal.Gen Idealize.ShloMosaic Idealize.ShloMosaic.ValueIdx

/-- Row `p` of a block of twist vectors. -/
def row (x0 : FVec Ideal S8192x3 .f32) (p : Fin 8192) : Fin 3 → EReal := fun k => x0 (ix2 p k)

theorem origin2 : (![0, 0] : Fin 2 → Nat) = fun _ => 0 := funext fun a => by fin_cases a <;> rfl

/-! ## The layout operations of the body, read at a row -/

/-- The lane sum of a row: the sum of its three entries. -/
theorem rowsum_apply (v : FVec Ideal S8192x3 .f32) (h : S8192x3.Reduces [1] S8192) (hφ : FKind.Formats .f32)
    (hacc : (0x00000000#32 : BitVec FTy.f32.bits) = FKind.add.neutral .f32 hφ) (p : Fin 8192) :
    multiReduction .add [1] S8192 v 0x00000000#32 h hφ hacc (ix1 p) = ∑ k : Fin 3, v (ix2 p k) :=
  (Ideal.multiReduction_add_single v 0x00000000#32 h hφ hacc (ix1 p)).trans
    (Finset.sum_congr rfl fun k _ => congrArg v (funext fun a => Fin.ext (by
      match a with
      | ⟨0, _⟩ => rfl
      | ⟨1, _⟩ => rfl)))

/-- A vector of 8192 entries seen as a column: entry (p, 0) is entry p. -/
theorem column_apply (v : FVec Ideal S8192 .f32) (h : S8192.ShapeCasts S8192x1) (p : Fin 8192) (z : Fin 1) :
    shapeCast S8192x1 v h (ix2 p z) = v (ix1 p) :=
  shapeCast_apply v h (ix2 p z) (ix1 p) (by
    rw [Shape.rowMajor_val_one, Shape.rowMajor_val_two]
    show p.val = p.val * 1 + z.val
    have := z.isLt; omega)

/-- A column spread over three lanes: entry (p, k) is the column's entry (p, 0). -/
theorem spread_apply (v : FVec Ideal S8192x1 .f32) (h : S8192x1.Broadcasts S8192x3) (p : Fin 8192) (k : Fin 3) :
    broadcastTo S8192x3 v h (ix2 p k) = v (ix2 p 0) :=
  broadcastTo_apply v h (ix2 p k) (ix2 p 0) (fun a => by
    match a with
    | ⟨0, _⟩ => show p.val = if (8192 : Nat) = 1 then 0 else p.val; rw [if_neg (by decide)]
    | ⟨1, _⟩ => show 0 = if (1 : Nat) = 1 then 0 else k.val; rw [if_pos rfl])

/-- Column `c` cut out of a three-lane vector: entry (p, 0) is entry (p, c). -/
theorem lane_apply (v : FVec Ideal S8192x3 .f32) (off : Fin S8192x3.rank → Nat) (h : S8192x3.Slices off S8192x1)
    (c : Fin 3) (h0 : off 0 = 0) (h1 : off 1 = c.val) (p : Fin 8192) (z : Fin 1) :
    extractStridedSlice S8192x1 off v h (ix2 p z) = v (ix2 p c) :=
  extractStridedSlice_apply off v h (ix2 p z) (ix2 p c) (fun a => by
    match a with
    | ⟨0, _⟩ => show p.val = off 0 + p.val; omega
    | ⟨1, _⟩ => show c.val = off 1 + z.val; have := z.isLt; omega)

/-! ## The body's values at a row -/

variable (x0 : FVec Ideal S8192x3 .f32) (p : Fin 8192) (z : Fin 1)

/-- The clamped norm of row `p`. -/
theorem angle_apply : k0_pay3 (F := Ideal) x0 (ix2 p z) = Rodrigues.angle (row x0 p) := by
  unfold k0_pay3 k0_pay2
  dsimp only
  rw [shapeCast_self]
  show max (Ideal.sqrt (shapeCast S8192x1 (multiReduction .add [1] S8192 (mulf x0 x0) 0x00000000#32 _ _ _) _ (ix2 p z)))
      (Ideal.ofBits .f32 0x3727C5AC#32) = _
  rw [column_apply]
  exact congrArg (fun s => max (Ideal.sqrt s) (Ideal.ofBits .f32 0x3727C5AC#32)) (rowsum_apply (mulf x0 x0) _ _ _ p)

/-- The row over its angle. -/
theorem axis_apply (k : Fin 3) : k0_pay4 (F := Ideal) x0 (ix2 p k) = Rodrigues.axis (row x0 p) k := by
  unfold k0_pay4 k0_pay2
  dsimp only
  rw [shapeCast_self]
  show Ideal.div (x0 (ix2 p k)) (broadcastTo S8192x3 (k0_pay3 (F := Ideal) x0) _ (ix2 p k)) = _
  rw [spread_apply, angle_apply]
  rfl

theorem a0_apply : k0_pay5 (F := Ideal) x0 (ix2 p z) = Rodrigues.axis (row x0 p) 0 := by
  unfold k0_pay5
  exact (lane_apply _ _ _ 0 rfl rfl p z).trans (axis_apply x0 p 0)

theorem a1_apply : k0_pay6 (F := Ideal) x0 (ix2 p z) = Rodrigues.axis (row x0 p) 1 := by
  unfold k0_pay6
  exact (lane_apply _ _ _ 1 rfl rfl p z).trans (axis_apply x0 p 1)

theorem a2_apply : k0_pay7 (F := Ideal) x0 (ix2 p z) = Rodrigues.axis (row x0 p) 2 := by
  unfold k0_pay7
  exact (lane_apply _ _ _ 2 rfl rfl p z).trans (axis_apply x0 p 2)

theorem sine_apply : k0_pay8 (F := Ideal) x0 (ix2 p z) = Rodrigues.sine (row x0 p) := by
  show Ideal.sin (k0_pay3 (F := Ideal) x0 (ix2 p z)) = _
  rw [angle_apply]; rfl

theorem versine_apply : k0_pay9 (F := Ideal) x0 (ix2 p z) = Rodrigues.versine (row x0 p) := by
  show Ideal.ofBits .f32 0x3F800000#32 - Ideal.cos (k0_pay3 (F := Ideal) x0 (ix2 p z)) = _
  rw [angle_apply]; rfl

/-! ## Products of the axis with itself and with the sine -/

local notation "ax" => Rodrigues.axis (row x0 p)
local notation "sn" => Rodrigues.sine (row x0 p)
local notation "vs" => Rodrigues.versine (row x0 p)

theorem a0a1_apply : k0_pay10 (F := Ideal) x0 (ix2 p z) = ax 0 * ax 1 := by
  show k0_pay5 (F := Ideal) x0 (ix2 p z) * k0_pay6 (F := Ideal) x0 (ix2 p z) = _
  rw [a0_apply, a1_apply]
theorem a0a2_apply : k0_pay11 (F := Ideal) x0 (ix2 p z) = ax 0 * ax 2 := by
  show k0_pay5 (F := Ideal) x0 (ix2 p z) * k0_pay7 (F := Ideal) x0 (ix2 p z) = _
  rw [a0_apply, a2_apply]
theorem a1a2_apply : k0_pay12 (F := Ideal) x0 (ix2 p z) = ax 1 * ax 2 := by
  show k0_pay6 (F := Ideal) x0 (ix2 p z) * k0_pay7 (F := Ideal) x0 (ix2 p z) = _
  rw [a1_apply, a2_apply]
theorem a0s_apply : k0_pay13 (F := Ideal) x0 (ix2 p z) = ax 0 * sn := by
  show k0_pay5 (F := Ideal) x0 (ix2 p z) * k0_pay8 (F := Ideal) x0 (ix2 p z) = _
  rw [a0_apply, sine_apply]
theorem a1s_apply : k0_pay14 (F := Ideal) x0 (ix2 p z) = ax 1 * sn := by
  show k0_pay6 (F := Ideal) x0 (ix2 p z) * k0_pay8 (F := Ideal) x0 (ix2 p z) = _
  rw [a1_apply, sine_apply]
theorem a2s_apply : k0_pay15 (F := Ideal) x0 (ix2 p z) = ax 2 * sn := by
  show k0_pay7 (F := Ideal) x0 (ix2 p z) * k0_pay8 (F := Ideal) x0 (ix2 p z) = _
  rw [a2_apply, sine_apply]
theorem a0a0_apply : k0_pay16 (F := Ideal) x0 (ix2 p z) = ax 0 * ax 0 := by
  show k0_pay5 (F := Ideal) x0 (ix2 p z) * k0_pay5 (F := Ideal) x0 (ix2 p z) = _
  rw [a0_apply]
theorem a1a1_apply : k0_pay17 (F := Ideal) x0 (ix2 p z) = ax 1 * ax 1 := by
  show k0_pay6 (F := Ideal) x0 (ix2 p z) * k0_pay6 (F := Ideal) x0 (ix2 p z) = _
  rw [a1_apply]
theorem a2a2_apply : k0_pay18 (F := Ideal) x0 (ix2 p z) = ax 2 * ax 2 := by
  show k0_pay7 (F := Ideal) x0 (ix2 p z) * k0_pay7 (F := Ideal) x0 (ix2 p z) = _
  rw [a2_apply]

/-! ## The nine entries -/

theorem r00_apply : k0_pay19 (F := Ideal) x0 (ix2 p z) = Rodrigues.closed ax sn vs 0 := by
  show Ideal.ofBits .f32 0x3F800000#32 + ((Ideal.ofBits .f32 0x00000000#32 - k0_pay18 (F := Ideal) x0 (ix2 p z))
    - k0_pay17 (F := Ideal) x0 (ix2 p z)) * k0_pay9 (F := Ideal) x0 (ix2 p z) = _
  rw [a2a2_apply, a1a1_apply, versine_apply]; rfl
theorem r01_apply : k0_pay20 (F := Ideal) x0 (ix2 p z) = Rodrigues.closed ax sn vs 1 := by
  show (Ideal.ofBits .f32 0x00000000#32 - k0_pay15 (F := Ideal) x0 (ix2 p z))
    + k0_pay10 (F := Ideal) x0 (ix2 p z) * k0_pay9 (F := Ideal) x0 (ix2 p z) = _
  rw [a2s_apply, a0a1_apply, versine_apply]; rfl
theorem r02_apply : k0_pay21 (F := Ideal) x0 (ix2 p z) = Rodrigues.closed ax sn vs 2 := by
  show k0_pay14 (F := Ideal) x0 (ix2 p z) + k0_pay11 (F := Ideal) x0 (ix2 p z) * k0_pay9 (F := Ideal) x0 (ix2 p z) = _
  rw [a1s_apply, a0a2_apply, versine_apply]; rfl
theorem r10_apply : k0_pay22 (F := Ideal) x0 (ix2 p z) = Rodrigues.closed ax sn vs 3 := by
  show k0_pay15 (F := Ideal) x0 (ix2 p z) + k0_pay10 (F := Ideal) x0 (ix2 p z) * k0_pay9 (F := Ideal) x0 (ix2 p z) = _
  rw [a2s_apply, a0a1_apply, versine_apply]; rfl
theorem r11_apply : k0_pay23 (F := Ideal) x0 (ix2 p z) = Rodrigues.closed ax sn vs 4 := by
  show Ideal.ofBits .f32 0x3F800000#32 + ((Ideal.ofBits .f32 0x00000000#32 - k0_pay18 (F := Ideal) x0 (ix2 p z))
    - k0_pay16 (F := Ideal) x0 (ix2 p z)) * k0_pay9 (F := Ideal) x0 (ix2 p z) = _
  rw [a2a2_apply, a0a0_apply, versine_apply]; rfl
theorem neg_a0s_apply : k0_pay24 (F := Ideal) x0 (ix2 p z) = Rodrigues.zero - ax 0 * sn := by
  show Ideal.ofBits .f32 0x00000000#32 - k0_pay13 (F := Ideal) x0 (ix2 p z) = _
  rw [a0s_apply]; rfl

/-! ## The block the body leaves -/

/-- Off the joined axis a piece's index is the block's. -/
theorem piece_row (q : Fin 9) (b : Fin S8192x1.rank) (hb : b.cast (rfl : S8192x1.rank = S8192x9.rank) ≠ (1 : Fin 2)) :
    ((ix2 p (0 : Fin 1) : S8192x1.Idx) b).val = ((ix2 p q : S8192x9.Idx) (b.cast rfl)).val := by
  match b with
  | ⟨0, _⟩ => rfl
  | ⟨1, _⟩ => exact absurd rfl hb

/-- Nine columns of a block. -/
def cols (v0 v1 v2 v3 v4 v5 v6 v7 v8 : FVec Ideal S8192x1 .f32) : List ((s : Shape) × (s.Idx → Ideal .f32)) :=
  [⟨S8192x1, v0⟩, ⟨S8192x1, v1⟩, ⟨S8192x1, v2⟩, ⟨S8192x1, v3⟩, ⟨S8192x1, v4⟩, ⟨S8192x1, v5⟩, ⟨S8192x1, v6⟩, ⟨S8192x1, v7⟩, ⟨S8192x1, v8⟩]

/-- The column that a coordinate on the joined axis names. -/
def pick (v0 v1 v2 v3 v4 v5 v6 v7 v8 : FVec Ideal S8192x1 .f32) (q : Fin 9) : FVec Ideal S8192x1 .f32 :=
  match q with
  | ⟨0, _⟩ => v0
  | ⟨1, _⟩ => v1
  | ⟨2, _⟩ => v2
  | ⟨3, _⟩ => v3
  | ⟨4, _⟩ => v4
  | ⟨5, _⟩ => v5
  | ⟨6, _⟩ => v6
  | ⟨7, _⟩ => v7
  | ⟨_ + 8, _⟩ => v8

/-- Nine columns laid side by side: entry (p, q) is entry (p, 0) of column q. -/
theorem nine_apply (v0 v1 v2 v3 v4 v5 v6 v7 v8 : FVec Ideal S8192x1 .f32)
    (h : Shape.Concatenates ((cols v0 v1 v2 v3 v4 v5 v6 v7 v8).map (·.1)) S8192x9 (1 : Fin 2)) (q : Fin 9) :
    concatenate S8192x9 1 (cols v0 v1 v2 v3 v4 v5 v6 v7 v8) h (ix2 p q) = pick v0 v1 v2 v3 v4 v5 v6 v7 v8 q (ix2 p 0) := by
  have h' : Shape.Concatenates ((List.ofFn fun n : Fin 9 =>
      (⟨S8192x1, pick v0 v1 v2 v3 v4 v5 v6 v7 v8 n⟩ : (s : Shape) × (s.Idx → Ideal .f32))).map (·.1)) S8192x9 (1 : Fin 2) := h
  exact concatenate_ofFn_unit_apply (t := S8192x9) (s₁ := S8192x1) (1 : Fin 2) (pick v0 v1 v2 v3 v4 v5 v6 v7 v8) h' rfl rfl
    (ix2 p q) q rfl (ix2 p 0) (piece_row p q)

/-- Entry (p, q) of the block the body stores: entry q of the closed-form rotation matrix of row p of the loaded block. -/
theorem out_apply (q : Fin 9) :
    out0_1 (F := Ideal) x0 (ix2 p q) = Rodrigues.closed ax sn vs q := by
  unfold out0_1
  rw [View.canon_unit_zero origin2]
  simp only [View.ld_unit_zero (S := S8192x3) origin2]
  unfold k0_pay1
  refine (nine_apply p _ _ _ _ _ _ _ _ _ _ q).trans ?_
  match q with
  | ⟨0, _⟩ => exact r00_apply x0 p 0
  | ⟨1, _⟩ => exact r01_apply x0 p 0
  | ⟨2, _⟩ => exact r02_apply x0 p 0
  | ⟨3, _⟩ => exact r10_apply x0 p 0
  | ⟨4, _⟩ => exact r11_apply x0 p 0
  | ⟨5, _⟩ =>
    show k0_pay24 (F := Ideal) x0 (ix2 p 0) + k0_pay12 (F := Ideal) x0 (ix2 p 0) * k0_pay9 (F := Ideal) x0 (ix2 p 0) = _
    rw [neg_a0s_apply, a1a2_apply, versine_apply]; rfl
  | ⟨6, _⟩ =>
    show (Ideal.ofBits .f32 0x00000000#32 - k0_pay14 (F := Ideal) x0 (ix2 p 0)) + k0_pay11 (F := Ideal) x0 (ix2 p 0) * k0_pay9 (F := Ideal) x0 (ix2 p 0) = _
    rw [a1s_apply, a0a2_apply, versine_apply]; rfl
  | ⟨7, _⟩ =>
    show k0_pay13 (F := Ideal) x0 (ix2 p 0) + k0_pay12 (F := Ideal) x0 (ix2 p 0) * k0_pay9 (F := Ideal) x0 (ix2 p 0) = _
    rw [a0s_apply, a1a2_apply, versine_apply]; rfl
  | ⟨8, _⟩ =>
    show Ideal.ofBits .f32 0x3F800000#32 + ((Ideal.ofBits .f32 0x00000000#32 - k0_pay17 (F := Ideal) x0 (ix2 p 0)) - k0_pay16 (F := Ideal) x0 (ix2 p 0)) * k0_pay9 (F := Ideal) x0 (ix2 p 0) = _
    rw [a1a1_apply, a0a0_apply, versine_apply]; rfl

end Cert.KernelIdeal.Block

end
-- ==== Proof.KernelArray.lean ====
/-
  From blocks to arrays, and the two reshapes around the kernel.

  The kernel sees the twists as a flat list of 8,388,608 rows (the reshape before the launch) and walks it in 1024
  blocks of 8192 rows; block t of the input is rows 8192 t .. 8192 t + 8191, and block t of the output is the same
  rows of the 8,388,608 x 9 result.  Since the body is row-local, what point t writes back is block t of ONE
  whole-array function: row n of the result is the closed-form rotation matrix of row n of the input.  The blocks
  tile the array (row n is in block n / 8192), so that function is the array after the run.  The reshape after the
  launch reads flat row b * 2048 + r, column 3 i + j as entry (b, r, i, j).
-/
import proofs.«117936_j48696339202533_1_alg».proof.Proof.KernelBlock
import Idealize.ShloMosaic.Lib.StableHlo.Run

set_option maxRecDepth 16384

noncomputable section

namespace Cert.KernelIdeal.Whole

open Cert Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every row's rotation matrix in closed form, for a flat list of twists. -/
def rows (x : S8388608x3.Idx → EReal) : S8388608x9.Idx → EReal := fun j =>
  Rodrigues.closed (Rodrigues.axis fun k => x (ix2 (j 0) k)) (Rodrigues.sine fun k => x (ix2 (j 0) k))
    (Rodrigues.versine fun k => x (ix2 (j 0) k)) (j 1)

/-- The printed index maps over the 1024 grid points: block t of either window is block row t, block column 0. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of `rows` of the flat twists as the region finds them. -/
theorem flushed_eq (c : Dev nD) (t : Fin cfg0.N) :
    (dats m 0 c).flushed 1 t = ((cfg0.win 1).blk t).view.read (Elt Ideal) (rows (V m c main_v0)) := by
  show (cfg0.win 1).cut (grid0.coords t) ((dats m 0 c).after 1 t) = _
  rw [after0_1]
  obtain ⟨e0, e1, e2, e3⟩ := index_facts t
  have ht : t.val < 1024 := lt_of_lt_of_eq t.isLt N_0
  funext y
  obtain ⟨p, q, rfl⟩ : ∃ (p : Fin 8192) (q : Fin 9), y = ix2 p q := ⟨y 0, y 1, eq_ix2 y⟩
  show out0_1 (iblk m c 0 t) (ix2 p q) = rows (V m c main_v0) (((cfg0.win 1).blk t).view.emb (ix2 p q))
  refine (Block.out_apply (iblk m c 0 t) p q).trans ?_
  have hn : t.val * 8192 + p.val < 8388608 := by have := p.isLt; omega
  have h1 : ((cfg0.win 1).blk t).view.emb (ix2 p q) = ix2 (⟨t.val * 8192 + p.val, hn⟩ : Fin 8388608) q := by
    funext a; apply Fin.ext
    match a with
    | ⟨0, _⟩ => show win0_1.index t (0 : Fin 2) * 8192 + 1 * p.val = t.val * 8192 + p.val; omega
    | ⟨1, _⟩ => show win0_1.index t (1 : Fin 2) * 9 + 1 * q.val = q.val; omega
  have h0 : Block.row (iblk m c 0 t) p = fun k => V m c main_v0 (ix2 (⟨t.val * 8192 + p.val, hn⟩ : Fin 8388608) k) := by
    funext k
    show V m c main_v0 (((cfg0.win 0).blk t).view.emb (ix2 p k)) = _
    refine congrArg (V m c main_v0) ?_
    funext a; apply Fin.ext
    match a with
    | ⟨0, _⟩ => show win0_0.index t (0 : Fin 2) * 8192 + 1 * p.val = t.val * 8192 + p.val; omega
    | ⟨1, _⟩ => show win0_0.index t (1 : Fin 2) * 3 + 1 * k.val = k.val; omega
  rw [h1, h0]
  rfl

/-- An index of the result is in point t's block iff each coordinate is in the block's range on its axis. -/
theorem mem_block (t : Fin cfg0.N) (i : S8388608x9.Idx) :
    i ∈ ((cfg0.win 1).blk t).view.set ↔ ∀ a : Fin 2, win0_1.index t a * S8192x9.size a ≤ (i a).val
      ∧ (i a).val < win0_1.index t a * S8192x9.size a + S8192x9.size a := by
  show i ∈ ((View.whole main_v1).slice (win0_1.rect t)).set ↔ _
  rw [View.set_slice_whole, Rect.mem_set_unit]
  exact Iff.rfl

/-- Row n of the result is in block n / 8192. -/
theorem cover (i : S8388608x9.Idx) :
    ∃ t : Fin cfg0.N, (cfg0.win 1).flush t = true ∧ i ∈ ((cfg0.win 1).blk t).view.set := by
  have hi0 : (i 0).val < 8388608 := (i 0).isLt
  have hi1 : (i 1).val < 9 := (i 1).isLt
  have hN : cfg0.N = 1024 := N_0
  have hlt : (i 0).val / 8192 < cfg0.N := by rw [hN]; omega
  refine ⟨⟨(i 0).val / 8192, hlt⟩, flush0_1 _, ?_⟩
  rw [mem_block]
  obtain ⟨e0, e1, e2, e3⟩ := index_facts ⟨(i 0).val / 8192, hlt⟩
  intro a
  match a with
  | ⟨0, _⟩ =>
    show win0_1.index ⟨(i 0).val / 8192, hlt⟩ (0 : Fin 2) * 8192 ≤ (i 0).val
      ∧ (i 0).val < win0_1.index ⟨(i 0).val / 8192, hlt⟩ (0 : Fin 2) * 8192 + 8192
    rw [e2]; show (i 0).val / 8192 * 8192 ≤ (i 0).val ∧ (i 0).val < (i 0).val / 8192 * 8192 + 8192; omega
  | ⟨1, _⟩ =>
    show win0_1.index ⟨(i 0).val / 8192, hlt⟩ (1 : Fin 2) * 9 ≤ (i 1).val
      ∧ (i 1).val < win0_1.index ⟨(i 0).val / 8192, hlt⟩ (1 : Fin 2) * 9 + 9
    rw [e3]; omega

/-- The flat result after the run. -/
theorem final (c : Dev nD) : (dats m 0 c).arrAt 1 cfg0.N = rows (V m c main_v0) :=
  (dats m 0 c).arrAt_eq_of_cover 1 (rows (V m c main_v0)) (fun t _ => flushed_eq m c t) cover

/-! ## The reshapes around the launch -/

/-- The region finds the twists flattened to rows. -/
theorem entry_eq (c : Dev nD) :
    (V m c main_v0 : S8388608x3.Idx → EReal)
      = shapeCast S8388608x3 (m ((c : Thread nD τ).loc main_arg0)) Facts₀.shapeCasts_S4096x2048x3_S8388608x3 := by
  show StableHlo.after hostOps0 (fun b => m (c, b)) (Proc.devRef .tc main_v0) = _
  after_results
  rfl

/-- The program's result: the flat rows read as 4096 x 2048 matrices of 3 x 3. -/
def result (c : Dev nD) : S4096x2048x3x3.Idx → EReal :=
  shapeCast S4096x2048x3x3
    (rows (shapeCast S8388608x3 (m ((c : Thread nD τ).loc main_arg0)) Facts₀.shapeCasts_S4096x2048x3_S8388608x3))
    Facts₀.shapeCasts_S8388608x9_S4096x2048x3x3

/-- After the lines that follow the region the result buffer holds `result`. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  funext i
  show shapeCast S4096x2048x3x3 (Pipeline.withArrays spec0 c (V0 m c) (fun w => (dats m 0 c).arrAt w cfg0.N)
      (Proc.devRef .tc main_v1)) Facts₀.shapeCasts_S8388608x9_S4096x2048x3x3 i = _
  have hw : Pipeline.withArrays spec0 c (V0 m c) (fun w => (dats m 0 c).arrAt w cfg0.N) (Proc.devRef .tc main_v1)
      = rows (V m c main_v0) :=
    (Pipeline.withArrays_arr spec0 launch0.win.arr_inj c _ _ 1).trans (final m c)
  rw [hw, entry_eq]
  rfl

/-- The kernel's run, read: the result buffer ends at `result`, the twists unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

/-- Entry (b, r, i, j) of the result: entry 3 i + j of the closed-form rotation matrix of the twist at (b, r). -/
theorem result_apply (c : Dev nD) (b : Fin 4096) (r : Fin 2048) (i j : Fin 3) :
    result m c (ix4 b r i j)
      = Rodrigues.closed (Rodrigues.axis fun k => m ((c : Thread nD τ).loc main_arg0) (ix3 b r k))
          (Rodrigues.sine fun k => m ((c : Thread nD τ).loc main_arg0) (ix3 b r k))
          (Rodrigues.versine fun k => m ((c : Thread nD τ).loc main_arg0) (ix3 b r k)) (Rodrigues.flat i j) := by
  have hn : b.val * 2048 + r.val < 8388608 := by have := b.isLt; have := r.isLt; omega
  unfold result
  rw [shapeCast_apply _ Facts₀.shapeCasts_S8388608x9_S4096x2048x3x3 (ix4 b r i j)
    (ix2 (⟨b.val * 2048 + r.val, hn⟩ : Fin 8388608) (Rodrigues.flat i j)) (by
      rw [Shape.rowMajor_val_two, Shape.rowMajor_val_four]
      show (b.val * 2048 + r.val) * 9 + (3 * i.val + j.val) = ((b.val * 2048 + r.val) * 3 + i.val) * 3 + j.val
      omega)]
  have hrow : (fun k : Fin 3 => shapeCast S8388608x3 (m ((c : Thread nD τ).loc main_arg0))
        Facts₀.shapeCasts_S4096x2048x3_S8388608x3 (ix2 (⟨b.val * 2048 + r.val, hn⟩ : Fin 8388608) k))
      = fun k => m ((c : Thread nD τ).loc main_arg0) (ix3 b r k) :=
    funext fun k => shapeCast_apply _ Facts₀.shapeCasts_S4096x2048x3_S8388608x3 _ (ix3 b r k) (by
      rw [Shape.rowMajor_val_three, Shape.rowMajor_val_two]
      show (b.val * 2048 + r.val) * 3 + k.val = (b.val * 2048 + r.val) * 3 + k.val
      rfl)
  show Rodrigues.closed (Rodrigues.axis fun k => shapeCast S8388608x3 (m ((c : Thread nD τ).loc main_arg0))
        Facts₀.shapeCasts_S4096x2048x3_S8388608x3 (ix2 (⟨b.val * 2048 + r.val, hn⟩ : Fin 8388608) k))
      (Rodrigues.sine fun k => shapeCast S8388608x3 (m ((c : Thread nD τ).loc main_arg0))
        Facts₀.shapeCasts_S4096x2048x3_S8388608x3 (ix2 (⟨b.val * 2048 + r.val, hn⟩ : Fin 8388608) k))
      (Rodrigues.versine fun k => shapeCast S8388608x3 (m ((c : Thread nD τ).loc main_arg0))
        Facts₀.shapeCasts_S4096x2048x3_S8388608x3 (ix2 (⟨b.val * 2048 + r.val, hn⟩ : Fin 8388608) k))
      (Rodrigues.flat i j) = _
  rw [hrow]

end Cert.KernelIdeal.Whole

end
-- ==== Proof.RefValue.lean ====
/-
  The reference, row by row.

  For the twist at (b, r) the reference computes the same angle, axis, sine and versine as the closed form does,
  lays the axis out as the cross-product matrix A (a concatenation of nine columns, reshaped to 3 x 3), takes the
  matrix product A A as a contraction over the middle index, builds the identity by comparing a row counter with
  a column counter, and returns (I + A s) + (A A) c.  Read at (b, r, i, j) this is the expanded form of the
  rotation matrix's entry (i, j) for the row (b, r).
-/
import proofs.«117936_j48696339202533_1_alg».proof.Proof.Gen.ReferenceIdeal.Read
import proofs.«117936_j48696339202533_1_alg».proof.Proof.Rodrigues

noncomputable section

namespace Cert.ReferenceIdeal.Rows

open Cert Cert.ReferenceIdeal Cert.ReferenceIdeal.Gen Cert.ReferenceIdeal.Read Idealize.ShloMosaic Idealize.ShloMosaic.ValueIdx

variable (X : (⟨S4096x2048x3, .f32⟩ : BufTy).Contents (Elt Ideal)) (b : Fin 4096) (r : Fin 2048) (z : Fin 1)

/-- The twist at (b, r). -/
def row : Fin 3 → EReal := fun k => X (ix3 b r k)

/-! ## Where each layout operation reads -/

theorem lanes (k : Fin 3) : idx_main_call0_v1 (ix2 b r) k = ix3 b r k := funext fun a => Fin.ext (by
    match a with
    | ⟨0, _⟩ => rfl
    | ⟨1, _⟩ => rfl
    | ⟨2, _⟩ => rfl)
theorem keep : idx_main_call0_v2 (ix3 b r z) = ix2 b r := funext fun a => Fin.ext (by
    match a with
    | ⟨0, _⟩ => rfl
    | ⟨1, _⟩ => rfl)
theorem spread (k : Fin 3) : idx_main_v3 (ix3 b r k) = ix3 b r (0 : Fin 1) := funext fun a => Fin.ext (by
    match a with
    | ⟨0, _⟩ => rfl
    | ⟨1, _⟩ => rfl
    | ⟨2, _⟩ => rfl)
theorem lane0 : idx_main_v5 (ix3 b r (0 : Fin 1)) = ix3 b r (0 : Fin 3) := funext fun a => Fin.ext (by
    match a with
    | ⟨0, _⟩ => rfl
    | ⟨1, _⟩ => rfl
    | ⟨2, _⟩ => rfl)
theorem lane1 : idx_main_v7 (ix3 b r (0 : Fin 1)) = ix3 b r (1 : Fin 3) := funext fun a => Fin.ext (by
    match a with
    | ⟨0, _⟩ => rfl
    | ⟨1, _⟩ => rfl
    | ⟨2, _⟩ => rfl)
theorem lane2 : idx_main_v9 (ix3 b r (0 : Fin 1)) = ix3 b r (2 : Fin 3) := funext fun a => Fin.ext (by
    match a with
    | ⟨0, _⟩ => rfl
    | ⟨1, _⟩ => rfl
    | ⟨2, _⟩ => rfl)
theorem unflat6 : idx_main_v6 (ix2 b r) = ix3 b r (0 : Fin 1) := funext fun a => Fin.ext (by
    match a with
    | ⟨0, _⟩ => show (b.val * 2048 + r.val) / 2048 = b.val; have := r.isLt; omega
    | ⟨1, _⟩ => show (b.val * 2048 + r.val) / 1 % 2048 = r.val; have := r.isLt; omega
    | ⟨2, _⟩ => rfl)
theorem unflat8 : idx_main_v8 (ix2 b r) = ix3 b r (0 : Fin 1) := funext fun a => Fin.ext (by
    match a with
    | ⟨0, _⟩ => show (b.val * 2048 + r.val) / 2048 = b.val; have := r.isLt; omega
    | ⟨1, _⟩ => show (b.val * 2048 + r.val) / 1 % 2048 = r.val; have := r.isLt; omega
    | ⟨2, _⟩ => rfl)
theorem unflat10 : idx_main_v10 (ix2 b r) = ix3 b r (0 : Fin 1) := funext fun a => Fin.ext (by
    match a with
    | ⟨0, _⟩ => show (b.val * 2048 + r.val) / 2048 = b.val; have := r.isLt; omega
    | ⟨1, _⟩ => show (b.val * 2048 + r.val) / 1 % 2048 = r.val; have := r.isLt; omega
    | ⟨2, _⟩ => rfl)
theorem col15 : idx_main_v15 (ix3 b r z) = ix2 b r := funext fun a => Fin.ext (by
    match a with
    | ⟨0, _⟩ => rfl
    | ⟨1, _⟩ => rfl)
theorem col16 : idx_main_v16 (ix3 b r z) = ix2 b r := funext fun a => Fin.ext (by
    match a with
    | ⟨0, _⟩ => rfl
    | ⟨1, _⟩ => rfl)
theorem col17 : idx_main_v17 (ix3 b r z) = ix2 b r := funext fun a => Fin.ext (by
    match a with
    | ⟨0, _⟩ => rfl
    | ⟨1, _⟩ => rfl)
theorem col18 : idx_main_v18 (ix3 b r z) = ix2 b r := funext fun a => Fin.ext (by
    match a with
    | ⟨0, _⟩ => rfl
    | ⟨1, _⟩ => rfl)
theorem col19 : idx_main_v19 (ix3 b r z) = ix2 b r := funext fun a => Fin.ext (by
    match a with
    | ⟨0, _⟩ => rfl
    | ⟨1, _⟩ => rfl)
theorem col20 : idx_main_v20 (ix3 b r z) = ix2 b r := funext fun a => Fin.ext (by
    match a with
    | ⟨0, _⟩ => rfl
    | ⟨1, _⟩ => rfl)
theorem col21 : idx_main_v21 (ix3 b r z) = ix2 b r := funext fun a => Fin.ext (by
    match a with
    | ⟨0, _⟩ => rfl
    | ⟨1, _⟩ => rfl)
theorem col22 : idx_main_v22 (ix3 b r z) = ix2 b r := funext fun a => Fin.ext (by
    match a with
    | ⟨0, _⟩ => rfl
    | ⟨1, _⟩ => rfl)
theorem col23 : idx_main_v23 (ix3 b r z) = ix2 b r := funext fun a => Fin.ext (by
    match a with
    | ⟨0, _⟩ => rfl
    | ⟨1, _⟩ => rfl)

/-- A 3 x 3 matrix flattened: (b, r, i, j) of the reshaped array is (b, r, 3 i + j) of the concatenation. -/
theorem matrix_idx (i j : Fin 3) : idx_main_v25 (ix4 b r i j) = ix3 b r (Rodrigues.flat i j) := funext fun a => Fin.ext (by
    have := r.isLt; have := i.isLt; have := j.isLt
    match a with
    | ⟨0, _⟩ => show ((((b.val * 2048 + r.val) * 3 + i.val) * 3 + j.val)) / 18432 = b.val; omega
    | ⟨1, _⟩ => show ((((b.val * 2048 + r.val) * 3 + i.val) * 3 + j.val)) / 9 % 2048 = r.val; omega
    | ⟨2, _⟩ => show ((((b.val * 2048 + r.val) * 3 + i.val) * 3 + j.val)) % 9 = 3 * i.val + j.val; omega)

theorem over_matrix39 (i j : Fin 3) : idx_main_v39 (ix4 b r i j) = ix4 b r (0 : Fin 1) (0 : Fin 1) := funext fun a => Fin.ext (by
    match a with
    | ⟨0, _⟩ => rfl
    | ⟨1, _⟩ => rfl
    | ⟨2, _⟩ => rfl
    | ⟨3, _⟩ => rfl)
theorem over_matrix44 (i j : Fin 3) : idx_main_v44 (ix4 b r i j) = ix4 b r (0 : Fin 1) (0 : Fin 1) := funext fun a => Fin.ext (by
    match a with
    | ⟨0, _⟩ => rfl
    | ⟨1, _⟩ => rfl
    | ⟨2, _⟩ => rfl
    | ⟨3, _⟩ => rfl)
theorem drop27 : idx_main_v27 (ix4 b r (0 : Fin 1) (0 : Fin 1)) = ix3 b r (0 : Fin 1) := funext fun a => Fin.ext (by
    match a with
    | ⟨0, _⟩ => rfl
    | ⟨1, _⟩ => rfl
    | ⟨2, _⟩ => rfl)
theorem drop31 : idx_main_v31 (ix4 b r (0 : Fin 1) (0 : Fin 1)) = ix3 b r (0 : Fin 1) := funext fun a => Fin.ext (by
    match a with
    | ⟨0, _⟩ => rfl
    | ⟨1, _⟩ => rfl
    | ⟨2, _⟩ => rfl)
theorem eye42 (i j : Fin 3) : idx_main_v42 (ix4 b r i j) = ix4 (0 : Fin 1) (0 : Fin 1) i j := funext fun a => Fin.ext (by
    match a with
    | ⟨0, _⟩ => rfl
    | ⟨1, _⟩ => rfl
    | ⟨2, _⟩ => rfl
    | ⟨3, _⟩ => rfl)
theorem eye41 (i j : Fin 3) : idx_main_v41 (ix4 (0 : Fin 1) (0 : Fin 1) i j) = ix2 i j := funext fun a => Fin.ext (by
    match a with
    | ⟨0, _⟩ => rfl
    | ⟨1, _⟩ => rfl)
theorem left_idx (i j k : Fin 3) : lidx_main_v32 (ix4 b r i j) k = ix4 b r i k := funext fun a => Fin.ext (by
    match a with
    | ⟨0, _⟩ => rfl
    | ⟨1, _⟩ => rfl
    | ⟨2, _⟩ => rfl
    | ⟨3, _⟩ => rfl)
theorem right_idx (i j k : Fin 3) : ridx_main_v32 (ix4 b r i j) k = ix4 b r k j := funext fun a => Fin.ext (by
    match a with
    | ⟨0, _⟩ => rfl
    | ⟨1, _⟩ => rfl
    | ⟨2, _⟩ => rfl
    | ⟨3, _⟩ => rfl)

/-! ## The angle and the axis -/

theorem sumsq_apply : val_main_call0_v1 (F := Ideal) X (ix2 b r) = Rodrigues.sumsq (row X b r) := by
  rw [val_main_call0_v1_apply]
  show Ideal.ofBits .f32 0x00000000#32
    + ∑ k : Fin 3, X (idx_main_call0_v1 (ix2 b r) k) * X (idx_main_call0_v1 (ix2 b r) k) = _
  rw [Ideal.ofBits_zero_f32, zero_add]
  exact Finset.sum_congr rfl fun k _ => by rw [lanes]; rfl

theorem angle_apply : val_main_v2 (F := Ideal) X (ix3 b r z) = Rodrigues.angle (row X b r) := by
  show max (Ideal.sqrt (val_main_call0_v2 (F := Ideal) X (ix3 b r z))) (val_main_v1 (F := Ideal) (ix3 b r z)) = _
  rw [val_main_call0_v2_apply, val_main_v1_apply, keep, sumsq_apply]; rfl

theorem axis_apply (k : Fin 3) : val_main_v4 (F := Ideal) X (ix3 b r k) = Rodrigues.axis (row X b r) k := by
  show Ideal.div (X (ix3 b r k)) (val_main_v3 (F := Ideal) X (ix3 b r k)) = _
  rw [val_main_v3_apply, spread, angle_apply]; rfl

local notation "A" => Rodrigues.axis (row X b r)

theorem a0_apply : val_main_v6 (F := Ideal) X (ix2 b r) = A 0 := by
  rw [val_main_v6_apply, unflat6, val_main_v5_apply, lane0, axis_apply]
theorem a1_apply : val_main_v8 (F := Ideal) X (ix2 b r) = A 1 := by
  rw [val_main_v8_apply, unflat8, val_main_v7_apply, lane1, axis_apply]
theorem a2_apply : val_main_v10 (F := Ideal) X (ix2 b r) = A 2 := by
  rw [val_main_v10_apply, unflat10, val_main_v9_apply, lane2, axis_apply]

/-! ## The nine columns of the cross-product matrix -/

theorem c0_apply : val_main_v15 (F := Ideal) (ix3 b r z) = Rodrigues.skew A 0 := by
  rw [val_main_v15_apply, val_main_v11_apply]; rfl
theorem c1_apply : val_main_v16 (F := Ideal) X (ix3 b r z) = Rodrigues.skew A 1 := by
  rw [val_main_v16_apply, col16]
  show -(val_main_v10 (F := Ideal) X (ix2 b r)) = _
  rw [a2_apply]; rfl
theorem c2_apply : val_main_v17 (F := Ideal) X (ix3 b r z) = Rodrigues.skew A 2 := by
  rw [val_main_v17_apply, col17, a1_apply]; rfl
theorem c3_apply : val_main_v18 (F := Ideal) X (ix3 b r z) = Rodrigues.skew A 3 := by
  rw [val_main_v18_apply, col18, a2_apply]; rfl
theorem c4_apply : val_main_v19 (F := Ideal) (ix3 b r z) = Rodrigues.skew A 4 := by
  rw [val_main_v19_apply, val_main_v11_apply]; rfl
theorem c5_apply : val_main_v20 (F := Ideal) X (ix3 b r z) = Rodrigues.skew A 5 := by
  rw [val_main_v20_apply, col20]
  show -(val_main_v6 (F := Ideal) X (ix2 b r)) = _
  rw [a0_apply]; rfl
theorem c6_apply : val_main_v21 (F := Ideal) X (ix3 b r z) = Rodrigues.skew A 6 := by
  rw [val_main_v21_apply, col21]
  show -(val_main_v8 (F := Ideal) X (ix2 b r)) = _
  rw [a1_apply]; rfl
theorem c7_apply : val_main_v22 (F := Ideal) X (ix3 b r z) = Rodrigues.skew A 7 := by
  rw [val_main_v22_apply, col22, a0_apply]; rfl
theorem c8_apply : val_main_v23 (F := Ideal) (ix3 b r z) = Rodrigues.skew A 8 := by
  rw [val_main_v23_apply, val_main_v11_apply]; rfl

/-- Off the joined axis a column's index is the concatenation's. -/
theorem piece_row (q : Fin 9) (a : Fin S4096x2048x1.rank) (ha : a.cast (rfl : S4096x2048x1.rank = S4096x2048x9.rank) ≠ (2 : Fin 3)) :
    ((ix3 b r (0 : Fin 1) : S4096x2048x1.Idx) a).val = ((ix3 b r q : S4096x2048x9.Idx) (a.cast rfl)).val := by
  match a with
  | ⟨0, _⟩ => rfl
  | ⟨1, _⟩ => rfl
  | ⟨2, _⟩ => exact absurd rfl ha

/-- Nine columns over the twists. -/
def cols (v0 v1 v2 v3 v4 v5 v6 v7 v8 : FVec Ideal S4096x2048x1 .f32) : List ((s : Shape) × (s.Idx → Ideal .f32)) :=
  [⟨S4096x2048x1, v0⟩, ⟨S4096x2048x1, v1⟩, ⟨S4096x2048x1, v2⟩, ⟨S4096x2048x1, v3⟩, ⟨S4096x2048x1, v4⟩, ⟨S4096x2048x1, v5⟩, ⟨S4096x2048x1, v6⟩, ⟨S4096x2048x1, v7⟩, ⟨S4096x2048x1, v8⟩]

/-- The column that a coordinate on the joined axis names. -/
def pick (v0 v1 v2 v3 v4 v5 v6 v7 v8 : FVec Ideal S4096x2048x1 .f32) (q : Fin 9) : FVec Ideal S4096x2048x1 .f32 :=
  match q with
  | ⟨0, _⟩ => v0
  | ⟨1, _⟩ => v1
  | ⟨2, _⟩ => v2
  | ⟨3, _⟩ => v3
  | ⟨4, _⟩ => v4
  | ⟨5, _⟩ => v5
  | ⟨6, _⟩ => v6
  | ⟨7, _⟩ => v7
  | ⟨_ + 8, _⟩ => v8

/-- Nine columns laid side by side: entry (b, r, q) is entry (b, r, 0) of column q. -/
theorem nine_apply (v0 v1 v2 v3 v4 v5 v6 v7 v8 : FVec Ideal S4096x2048x1 .f32)
    (h : Shape.Concatenates ((cols v0 v1 v2 v3 v4 v5 v6 v7 v8).map (·.1)) S4096x2048x9 (2 : Fin 3)) (q : Fin 9) :
    concatenate S4096x2048x9 2 (cols v0 v1 v2 v3 v4 v5 v6 v7 v8) h (ix3 b r q) = pick v0 v1 v2 v3 v4 v5 v6 v7 v8 q (ix3 b r 0) := by
  have h' : Shape.Concatenates ((List.ofFn fun n : Fin 9 =>
      (⟨S4096x2048x1, pick v0 v1 v2 v3 v4 v5 v6 v7 v8 n⟩ : (s : Shape) × (s.Idx → Ideal .f32))).map (·.1)) S4096x2048x9 (2 : Fin 3) := h
  exact concatenate_ofFn_unit_apply (t := S4096x2048x9) (s₁ := S4096x2048x1) (2 : Fin 3) (pick v0 v1 v2 v3 v4 v5 v6 v7 v8) h' rfl rfl
    (ix3 b r q) q rfl (ix3 b r 0) (piece_row b r q)

/-- The cross-product matrix of the axis, flattened. -/
theorem skew_apply (q : Fin 9) : val_main_v24 (F := Ideal) X (ix3 b r q) = Rodrigues.skew A q := by
  unfold val_main_v24
  refine (nine_apply b r _ _ _ _ _ _ _ _ _ _ q).trans ?_
  match q with
  | ⟨0, _⟩ => exact c0_apply X b r 0
  | ⟨1, _⟩ => exact c1_apply X b r 0
  | ⟨2, _⟩ => exact c2_apply X b r 0
  | ⟨3, _⟩ => exact c3_apply X b r 0
  | ⟨4, _⟩ => exact c4_apply X b r 0
  | ⟨5, _⟩ => exact c5_apply X b r 0
  | ⟨6, _⟩ => exact c6_apply X b r 0
  | ⟨7, _⟩ => exact c7_apply X b r 0
  | ⟨8, _⟩ => exact c8_apply X b r 0

/-- The same as a 3 x 3 matrix. -/
theorem skew_matrix (i j : Fin 3) : val_main_v25 (F := Ideal) X (ix4 b r i j) = Rodrigues.skew A (Rodrigues.flat i j) := by
  rw [val_main_v25_apply, matrix_idx, skew_apply]

/-! ## The sine, the versine and the identity over the matrix -/

theorem sine_matrix (i j : Fin 3) : val_main_v39 (F := Ideal) X (ix4 b r i j) = Rodrigues.sine (row X b r) := by
  rw [val_main_v39_apply, over_matrix39, val_main_v27_apply, drop27]
  show Ideal.sin (val_main_v2 (F := Ideal) X (ix3 b r 0)) = _
  rw [angle_apply]; rfl

theorem versine_matrix (i j : Fin 3) : val_main_v44 (F := Ideal) X (ix4 b r i j) = Rodrigues.versine (row X b r) := by
  rw [val_main_v44_apply, over_matrix44, val_main_v31_apply, drop31]
  show val_main_v29 (F := Ideal) (ix3 b r 0) - Ideal.cos (val_main_v2 (F := Ideal) X (ix3 b r 0)) = _
  rw [val_main_v29_apply, angle_apply]; rfl

/-- The identity: one where the row counter equals the column counter. -/
theorem identity_matrix (i j : Fin 3) : val_main_v42 (F := Ideal) (ix4 b r i j) = Rodrigues.delta i j := by
  rw [val_main_v42_apply, eye42, val_main_v41_apply, eye41]
  show (((IntOp.cmpi .eq (IntOp.addi (BitVec.ofNat 32 i.val) (val_main_v35 (F := Ideal) (ix2 i j))) (BitVec.ofNat 32 j.val)).toNat : ℝ) : EReal) = _
  rw [val_main_v35_apply]
  show (((IntOp.cmpi .eq (IntOp.addi (BitVec.ofNat 32 i.val) 0#32) (BitVec.ofNat 32 j.val)).toNat : ℝ) : EReal) = _
  fin_cases i <;> fin_cases j <;> simp [Rodrigues.delta, IntOp.cmpi, IntOp.addi]

/-! ## The result -/

/-- Entry (b, r, i, j) of the reference's result: the expanded rotation matrix of the twist at (b, r). -/
theorem result_apply (i j : Fin 3) :
    val_main_v46 (F := Ideal) X (ix4 b r i j)
      = Rodrigues.expanded A (Rodrigues.sine (row X b r)) (Rodrigues.versine (row X b r)) i j := by
  show (val_main_v42 (F := Ideal) (ix4 b r i j) + val_main_v25 (F := Ideal) X (ix4 b r i j) * val_main_v39 (F := Ideal) X (ix4 b r i j))
    + val_main_v32 (F := Ideal) X (ix4 b r i j) * val_main_v44 (F := Ideal) X (ix4 b r i j) = _
  rw [identity_matrix, skew_matrix, sine_matrix, versine_matrix, val_main_v32_apply]
  unfold Rodrigues.expanded
  refine congrArg (fun t => _ + t * _) (Finset.sum_congr rfl fun k _ => ?_)
  rw [left_idx, right_idx, skew_matrix, skew_matrix]

end Cert.ReferenceIdeal.Rows

end
-- ==== Proof.lean ====
/-
  Rodrigues' rotation formula, a Pallas kernel against its jnp reference, over the extended reals.

  Both programs map each twist vector x (a row of three numbers) to the 3 x 3 rotation matrix
  I + sin(theta) A + (1 - cos(theta)) A A, with theta = max(|x|, eps) and A the cross-product matrix of x / theta.
  The kernel flattens the twists to rows, walks them in blocks and writes each matrix's nine entries in closed
  form; the reference builds A, multiplies it with itself and adds the three terms.  The two agree entry by entry
  because, for a finite twist, the axis, the sine and the versine are real numbers, and over the reals the nine
  closed-form entries are the expanded matrix expression (Proof/Rodrigues.lean).  The kernel's side is read off
  its frame run block by block (Proof/KernelBlock.lean, Proof/KernelArray.lean), the reference's off its run one
  operation at a time (Proof/RefValue.lean), and the precondition gives finiteness (Proof/Finite.lean).
-/
import proofs.«117936_j48696339202533_1_alg».proof.Defs
import proofs.«117936_j48696339202533_1_alg».proof.Proof.Gen.Kernel
import proofs.«117936_j48696339202533_1_alg».proof.Proof.Gen.Kernel.Skeleton
import proofs.«117936_j48696339202533_1_alg».proof.Proof.Gen.Kernel.Launch
import proofs.«117936_j48696339202533_1_alg».proof.Proof.Gen.Kernel.Points
import proofs.«117936_j48696339202533_1_alg».proof.Proof.Gen.Kernel.Frame
import proofs.«117936_j48696339202533_1_alg».proof.Proof.Gen.KernelIdeal
import proofs.«117936_j48696339202533_1_alg».proof.Proof.Gen.KernelIdeal.Skeleton
import proofs.«117936_j48696339202533_1_alg».proof.Proof.Gen.KernelIdeal.Launch
import proofs.«117936_j48696339202533_1_alg».proof.Proof.Gen.KernelIdeal.Points
import proofs.«117936_j48696339202533_1_alg».proof.Proof.Gen.KernelIdeal.Frame
import proofs.«117936_j48696339202533_1_alg».proof.Proof.Gen.ReferenceIdeal
import proofs.«117936_j48696339202533_1_alg».proof.Proof.Gen.Pre_finite_inputs
import proofs.«117936_j48696339202533_1_alg».proof.Proof.Gen.ReferenceIdeal.Run
import proofs.«117936_j48696339202533_1_alg».proof.Proof.Gen.ReferenceIdeal.Read
import proofs.«117936_j48696339202533_1_alg».proof.Proof.Rodrigues
import proofs.«117936_j48696339202533_1_alg».proof.Proof.Finite
import proofs.«117936_j48696339202533_1_alg».proof.Proof.KernelArray
import proofs.«117936_j48696339202533_1_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel runs and keeps its argument. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and keeps its argument: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the twists both programs end with the same matrices: at (b, r, i, j) the kernel
    holds the closed form of entry (i, j) and the reference the expanded form, which are equal on a finite twist. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, hagree c]
  funext idx
  obtain ⟨b, r, i, j, rfl⟩ : ∃ (b : Fin 4096) (r : Fin 2048) (i j : Fin 3), idx = ix4 b r i j :=
    ⟨idx 0, idx 1, idx 2, idx 3, eq_ix4 idx⟩
  refine (Cert.ReferenceIdeal.Rows.result_apply _ b r i j).trans ?_
  refine Eq.trans ?_ (Cert.KernelIdeal.Whole.result_apply m c b r i j).symm
  exact (Cert.Rodrigues.closed_eq_expanded_row _ (fun k => Cert.Finite.real_of_pre _ (hpre c) _) i j).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
